-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x64 .f32) (main_arg6 : FVec F S32 .f32) (main_arg7 : FVec F S32x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S32x64 .f32) (main_arg6 : FVec F S32 .f32) (main_arg7 : FVec F S32x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S10000x64 : Shape := ⟨2, ![10000, 64]⟩
abbrev S64x32 : Shape := ⟨2, ![64, 32]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 67
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x64, .f32⟩
  | .hbm, ⟨34, _⟩ => ⟨S_, .f32⟩
  | .hbm, ⟨35, _⟩ => ⟨S100000x64, .f32⟩
  | .hbm, ⟨36, _⟩ => ⟨S1000000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S64x64, .f32⟩
  | .hbm, ⟨42, _⟩ => ⟨S64x64, .bf16⟩
  | .hbm, ⟨43, _⟩ => ⟨S64x64, .bf16⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S64x32, .f32⟩
  | .hbm, ⟨62, _⟩ => ⟨S64x32, .f32⟩
  | .hbm, ⟨63, _⟩ => ⟨S64x32, .bf16⟩
  | .hbm, ⟨64, _⟩ => ⟨S64x32, .bf16⟩
  | .hbm, ⟨65, _⟩ => ⟨S1x32, .f32⟩
  | .hbm, ⟨66, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .bf16⟩
  | .local _ .vmem, ⟨5, _⟩ => ⟨S1x64, .f32⟩
  | .local _ .vmem, ⟨6, _⟩ => ⟨S64x64, .bf16⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .bf16⟩
  | .local _ .vmem, ⟨14, _⟩ => ⟨S1x32, .f32⟩
  | .local _ .vmem, ⟨15, _⟩ => ⟨S64x32, .bf16⟩
  | .local _ .vmem, ⟨16, _⟩ => ⟨S10000x32, .f32⟩
  | .local _ .vmem, ⟨17, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bitsLt_bf16_f32 : FTy.bits .bf16 < FTy.bits .f32
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  transposes_S32x64_S64x32_1_0 : S32x64.Transposes [1, 0] S64x32
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .bf16 = 32 ∨ (Rect.block (s := S64x32) S64x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .bf16 = 32 ∨ (Rect.block (s := S64x32) S64x32.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .f32⟩
  | .hbm, ⟨22, _⟩ => ⟨S100000x64, .f32⟩
  | .hbm, ⟨23, _⟩ => ⟨S1000000x1, .i32⟩
  | .hbm, ⟨24, _⟩ => ⟨S100000x64, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S100000, .f32⟩
  | .hbm, ⟨65, _⟩ => ⟨S1000000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x32, .f32⟩
  | .hbm, ⟨74, _⟩ => ⟨S100000x32, .f32⟩
  | .hbm, ⟨75, _⟩ => ⟨S1x32, .f32⟩
  | .hbm, ⟨76, _⟩ => ⟨S100000x32, .f32⟩
  | .hbm, ⟨77, _⟩ => ⟨S100000x32, .f32⟩
  | .hbm, ⟨78, _⟩ => ⟨S64x32, .f32⟩
  | .hbm, ⟨79, _⟩ => ⟨S100000x32, .f32⟩
  | .hbm, ⟨80, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.MeanLayers.lean ====
/-
  Two layers of mean aggregation over a graph, as functions of the arrays.

  A layer sends the node features X (one row per node) to  mean · Wlᵀ + b + X · Wrᵀ,  where row n of `mean` is the sum
  of the rows of X over the edges that end at n, divided by the number of such edges (at least one). The sum over the
  edges is kept abstract here (an operator `A` on feature matrices, and the per-node edge count `cnt`): both programs
  compute it by the same gather and scatter-add, and nothing below looks inside it.

  The two programs differ in two places only, and the two laws below join them:
  * one multiplies the aggregated sum by the reciprocal 1 / max(cnt, 1), the other divides by max(cnt, 1); since
    max(cnt, 1) is never zero both are the product with its inverse, for every extended real (no finiteness is used);
  * one adds the bias after both matrix products, the other between them; addition of extended reals is commutative
    and associative.
-/
import Idealize.ShloMosaic.PureOps.Ideal.Laws
import Idealize.ShloMosaic.Lib.ValueIdx
import Idealize.ShloMosaic.Lib.IdealHost

noncomputable section

open scoped BigOperators

namespace MeanLayers

open Idealize.ShloMosaic Idealize.ShloMosaic.ValueIdx

/-- A matrix of extended reals with a rows and b columns. -/
abbrev Mat (a b : ℕ) : Type := (⟨2, ![a, b]⟩ : Shape).Idx → EReal
/-- A vector of extended reals with a entries. -/
abbrev Row (a : ℕ) : Type := (⟨1, ![a]⟩ : Shape).Idx → EReal

/-- The matrix with the given entries. -/
def ofEntries {a b : ℕ} (f : Fin a → Fin b → EReal) : Mat a b := fun i => f (i 0) (i 1)

theorem ofEntries_ix2 {a b : ℕ} (f : Fin a → Fin b → EReal) (p : Fin a) (q : Fin b) : ofEntries f (ix2 p q) = f p q := rfl

/-- A matrix is the matrix of its entries. -/
theorem ofEntries_self {a b : ℕ} (M : Mat a b) : ofEntries (fun p q => M (ix2 p q)) = M :=
  funext fun i => (congrArg M (eq_ix2 i)).symm

/-- Two matrices with the same entries are equal. -/
theorem ext_ix2 {a b : ℕ} {M M' : Mat a b} (h : ∀ p q, M (ix2 p q) = M' (ix2 p q)) : M = M' :=
  funext fun i => (congrArg M (eq_ix2 i)).trans ((h _ _).trans (congrArg M' (eq_ix2 i)).symm)

variable {N c : ℕ}

/-- One layer at node n and output feature j: mean · Wlᵀ + b + X · Wrᵀ, the weights stored one row per output feature. -/
def conv (M X : Mat N 64) (Wl Wr : Mat c 64) (b : Row c) (n : Fin N) (j : Fin c) : EReal :=
  (∑ k : Fin 64, M (ix2 n k) * Wl (ix2 j k)) + b (ix1 j) + ∑ k : Fin 64, X (ix2 n k) * Wr (ix2 j k)

/-- The bias added after both products instead of between them. -/
theorem conv_of_bias_last (M X : Mat N 64) (Wl Wr : Mat c 64) (b : Row c) (n : Fin N) (j : Fin c) :
    ((∑ k : Fin 64, M (ix2 n k) * Wl (ix2 j k)) + ∑ k : Fin 64, X (ix2 n k) * Wr (ix2 j k)) + b (ix1 j)
      = conv M X Wl Wr b n j :=
  add_right_comm _ _ _

/-- The larger of a count and one is not zero. -/
theorem max_one_ne_zero (s : EReal) : max s 1 ≠ 0 :=
  (lt_of_lt_of_le zero_lt_one (le_max_right s 1)).ne'

/-- The product with the reciprocal of max(s, 1) is the quotient by it, at the infinities too. -/
theorem mul_recip_eq_div (a s : EReal) : a * Ideal.div 1 (max s 1) = Ideal.div a (max s 1) := by
  unfold Ideal.div
  rw [if_neg (max_one_ne_zero s), if_neg (max_one_ne_zero s), one_mul]

section Mean

variable (A : Mat N 64 → Mat N 64) (cnt : Row N)

/-- The mean over the incoming edges: the aggregated sum divided by the edge count, at least one. -/
def nbrMean (X : Mat N 64) : Mat N 64 :=
  ofEntries fun n k => Ideal.div (A X (ix2 n k)) (max (cnt (ix1 n)) 1)

theorem nbrMean_ix2 (X : Mat N 64) (n : Fin N) (k : Fin 64) :
    nbrMean A cnt X (ix2 n k) = Ideal.div (A X (ix2 n k)) (max (cnt (ix1 n)) 1) := rfl

/-- The first layer followed by the larger of each entry and zero. -/
def hidden (x : Mat N 64) (W1l W1r : Mat 64 64) (b1 : Row 64) : Mat N 64 :=
  ofEntries fun n j => max (conv (nbrMean A cnt x) x W1l W1r b1 n j) 0

theorem hidden_ix2 (x : Mat N 64) (W1l W1r : Mat 64 64) (b1 : Row 64) (n : Fin N) (j : Fin 64) :
    hidden A cnt x W1l W1r b1 (ix2 n j) = max (conv (nbrMean A cnt x) x W1l W1r b1 n j) 0 := rfl

/-- The second layer applied to the first layer's result. -/
def output (x : Mat N 64) (W1l W1r : Mat 64 64) (b1 : Row 64) (W2l W2r : Mat 32 64) (b2 : Row 32) : Mat N 32 :=
  ofEntries (conv (nbrMean A cnt (hidden A cnt x W1l W1r b1)) (hidden A cnt x W1l W1r b1) W2l W2r b2)

theorem output_ix2 (x : Mat N 64) (W1l W1r : Mat 64 64) (b1 : Row 64) (W2l W2r : Mat 32 64) (b2 : Row 32)
    (n : Fin N) (j : Fin 32) :
    output A cnt x W1l W1r b1 W2l W2r b2 (ix2 n j)
      = conv (nbrMean A cnt (hidden A cnt x W1l W1r b1)) (hidden A cnt x W1l W1r b1) W2l W2r b2 n j := rfl

end Mean

end MeanLayers

end
-- ==== Proof.FirstLayerBlocks.lean ====
/-
  The first kernel region's result array as one function of the arrays the region finds.

  The region walks ten blocks of 10000 rows. At a point t it multiplies the block of the mean matrix and the block of
  the feature matrix (rows 10000·t … 10000·t + 9999 of each) by the two whole weight matrices on the matrix unit, adds
  the two products, then the bias row, takes the larger of each entry and zero, and writes the block back to the same
  rows of the result. A narrowing of the float format is the identity on extended reals, and a product accumulated into
  the zero splat is the plain sum over the contracted coordinate. So row n of the result depends on row n of the two
  matrices only, and the ten blocks tile the result.
-/
import proofs.«168772_j3186865734220_1_alg».proof.Proof.Gen.KernelIdeal.Frame
import proofs.«168772_j3186865734220_1_alg».proof.Proof.MeanLayers
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.FirstLayer

open Cert.KernelIdeal Cert.KernelIdeal.Gen

theorem hz : (![0, 0] : Fin 2 → Nat) = fun _ => 0 := funext fun a => by fin_cases a <;> rfl

/-! ## The matrix unit's product of a block with a 64×64 weight matrix, at an entry -/

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, j) of the product accumulated into zero: the sum over k of row p of the block times column j of the
    weights. -/
theorem product_apply (x : FVec Ideal S10000x64 .bf16) (w : FVec Ideal S64x64 .bf16) (p : Fin 10000) (j : Fin 64) :
    matmul dot_S10000x64_S64x64_S10000x64_1_0_0_1_n_n none x w (constant S10000x64 .f32 0x00000000#32) (ix2 p j)
      = ∑ k : Fin 64, x (ix2 p k) * w (ix2 k j) := by
  refine (Ideal.matmul_constant_zero_apply dot_S10000x64_S64x64_S10000x64_1_0_0_1_n_n none x w (ix2 p j)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p j) ((ValueIdx.contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p j) ((ValueIdx.contrEquiv1 dot_S10000x64_S64x64_S10000x64_1_0_0_1_n_n 64 rfl rfl).symm k) = ix2 k j := funext fun a => Fin.ext (by
    match a with
    | ⟨0, _⟩ => exact (rhs_0 _ _).trans hk
    | ⟨1, _⟩ => exact rhs_1 _ _)
  rw [el, er]

/-! ## What the body stores, at an entry -/

/-- The stored value at (p, j), from the five loaded blocks: both products, the bias row's entry j, the larger of the
    sum and zero. -/
theorem stored_apply (x0 x1 : FVec Ideal S10000x64 .f32) (w2 w4 : FVec Ideal S64x64 .bf16) (b3 : FVec Ideal S1x64 .f32)
    (p : Fin 10000) (j : Fin 64) :
    k0_pay1 (F := Ideal) x0 x1 w2 w4 b3 (ix2 p j)
      = max (((∑ k : Fin 64, x0 (ix2 p k) * w2 (ix2 k j)) + ∑ k : Fin 64, x1 (ix2 p k) * w4 (ix2 k j)) + b3 (ix2 (0 : Fin 1) j)) 0 := by
  unfold k0_pay1
  show max ((matmul dot_S10000x64_S64x64_S10000x64_1_0_0_1_n_n none _ _ (constant S10000x64 .f32 0x00000000#32) (ix2 p j)
      + matmul dot_S10000x64_S64x64_S10000x64_1_0_0_1_n_n none _ _ (constant S10000x64 .f32 0x00000000#32) (ix2 p j))
      + broadcastTo S10000x64 (shapeCast S1x64 b3 shapeCasts_S1x64_S1x64) broadcasts_S1x64_S10000x64 (ix2 p j)) (Ideal.ofBits .f32 0x00000000#32) = _
  rw [product_apply, product_apply, broadcastTo_1b_ab_apply, shapeCast_self, shapeCast_self, shapeCast_self, shapeCast_self, Ideal.ofBits_zero_f32]
  rfl

/-! ## The blocks are rows of the arrays -/

variable (V : (c : Dev nD) → (b : Ref sig .tc) → Buf (Elt Ideal) ((c : Thread nD τ).loc b))

/-- The printed index maps over the grid: the two row-blocked inputs and the output are at block row t, column block 0;
    the weights and the bias row are at block (0, 0) at every point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the block at point t is row 10000·t + p of the array. -/
def rowAt (t : Fin cfg0.N) (p : Fin 10000) : Fin 100000 :=
  ⟨t.val * 10000 + p.val, by
    have h : t.val < 10 := lt_of_lt_of_eq t.isLt N_0
    have := p.isLt
    omega⟩

theorem mean_block (c : Dev nD) (t : Fin cfg0.N) (p : Fin 10000) (k : Fin 64) :
    (iblk0 V c 0 t : FVec Ideal S10000x64 .f32) (ix2 p k) = (V c main_v24 : FVec Ideal S100000x64 .f32) (ix2 (rowAt t p) k) := by
  obtain ⟨e0, e1, -⟩ := index_facts t
  unfold iblk0
  rw [View.read_apply]
  show V c main_v24 _ = V c main_v24 _
  congr 1
  funext a; apply Fin.ext
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

theorem feature_block (c : Dev nD) (t : Fin cfg0.N) (p : Fin 10000) (k : Fin 64) :
    (iblk0 V c 1 t : FVec Ideal S10000x64 .f32) (ix2 p k) = (V c main_arg0 : FVec Ideal S100000x64 .f32) (ix2 (rowAt t p) k) := by
  obtain ⟨-, -, e0, e1, -⟩ := index_facts t
  unfold iblk0
  rw [View.read_apply]
  show V c main_arg0 _ = V c main_arg0 _
  congr 1
  funext a; apply Fin.ext
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

theorem left_weights_block (c : Dev nD) (t : Fin cfg0.N) (k j : Fin 64) :
    (iblk0 V c 2 t : FVec Ideal S64x64 .bf16) (ix2 k j) = (V c main_v27 : FVec Ideal S64x64 .bf16) (ix2 k j) := by
  obtain ⟨-, -, -, -, e0, e1, -⟩ := index_facts t
  unfold iblk0
  rw [View.read_apply]
  show V c main_v27 _ = V c main_v27 _
  congr 1
  funext a; apply Fin.ext
  match a with
  | ⟨0, _⟩ => show win0_2.index t (0 : Fin 2) * 64 + 1 * k.val = k.val; rw [e0]; omega
  | ⟨1, _⟩ => show win0_2.index t (1 : Fin 2) * 64 + 1 * j.val = j.val; rw [e1]; omega

theorem bias_block (c : Dev nD) (t : Fin cfg0.N) (j : Fin 64) :
    (iblk0 V c 3 t : FVec Ideal S1x64 .f32) (ix2 (0 : Fin 1) j) = (V c main_v29 : FVec Ideal S1x64 .f32) (ix2 (0 : Fin 1) j) := by
  obtain ⟨-, -, -, -, -, -, e0, e1, -⟩ := index_facts t
  unfold iblk0
  rw [View.read_apply]
  show V c main_v29 _ = V c main_v29 _
  congr 1
  funext a; apply Fin.ext
  match a with
  | ⟨0, _⟩ => show win0_3.index t (0 : Fin 2) * 1 + 1 * 0 = 0; rw [e0]
  | ⟨1, _⟩ => show win0_3.index t (1 : Fin 2) * 64 + 1 * j.val = j.val; rw [e1]; omega

theorem right_weights_block (c : Dev nD) (t : Fin cfg0.N) (k j : Fin 64) :
    (iblk0 V c 4 t : FVec Ideal S64x64 .bf16) (ix2 k j) = (V c main_v28 : FVec Ideal S64x64 .bf16) (ix2 k j) := by
  obtain ⟨-, -, -, -, -, -, -, -, e0, e1, -⟩ := index_facts t
  unfold iblk0
  rw [View.read_apply]
  show V c main_v28 _ = V c main_v28 _
  congr 1
  funext a; apply Fin.ext
  match a with
  | ⟨0, _⟩ => show win0_4.index t (0 : Fin 2) * 64 + 1 * k.val = k.val; rw [e0]; omega
  | ⟨1, _⟩ => show win0_4.index t (1 : Fin 2) * 64 + 1 * j.val = j.val; rw [e1]; omega

/-! ## The result array -/

/-- The whole result: at node n and feature j, both products of row n with the weights, the bias, the larger of the sum
    and zero. -/
def whole (Mn X : MeanLayers.Mat 100000 64) (wl wr : MeanLayers.Mat 64 64) (b : MeanLayers.Mat 1 64) : MeanLayers.Mat 100000 64 :=
  MeanLayers.ofEntries fun n j =>
    max (((∑ k : Fin 64, Mn (ix2 n k) * wl (ix2 k j)) + ∑ k : Fin 64, X (ix2 n k) * wr (ix2 k j)) + b (ix2 (0 : Fin 1) j)) 0

/-- What point t writes back is block t of `whole` of the arrays the region finds. -/
theorem flushed (c : Dev nD) (t : Fin cfg0.N) :
    (dat0 V c).flushed 5 t = ((cfg0.win 5).blk t).view.read (Elt Ideal)
      (whole (V c main_v24) (V c main_arg0) (V c main_v27) (V c main_v28) (V c main_v29)) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  funext y
  obtain ⟨p, j, rfl⟩ : ∃ (p : Fin 10000) (j : Fin 64), y = ix2 p j := ⟨y 0, y 1, eq_ix2 y⟩
  refine (stored_apply _ _ _ _ _ p j).trans ?_
  rw [View.read_apply]
  have hemb : ((cfg0.win 5).blk t).view.emb (ix2 p j) = ix2 (rowAt t p) j := by
    obtain ⟨-, -, -, -, -, -, -, -, -, -, e0, e1⟩ := index_facts t
    funext a; apply Fin.ext
    match a with
    | ⟨0, _⟩ => show win0_5.index t (0 : Fin 2) * 10000 + 1 * p.val = t.val * 10000 + p.val; rw [e0]; omega
    | ⟨1, _⟩ => show win0_5.index t (1 : Fin 2) * 64 + 1 * j.val = j.val; rw [e1]; omega
  rw [hemb]
  unfold whole
  rw [MeanLayers.ofEntries_ix2]
  simp only [mean_block, feature_block, left_weights_block, right_weights_block, bias_block]
  rfl

/-- An index of the result is in point t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v30).slice (win0_5.rect t)).set ↔ _
  rw [View.set_slice_whole, Rect.mem_set_unit]
  exact Iff.rfl

/-- Row r lies in the block of point r / 10000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have ht : (i 0).val / 10000 < cfg0.N := by rw [show cfg0.N = 10 from N_0]; omega
  obtain ⟨-, -, -, -, -, -, -, -, -, -, e0, e1⟩ := index_facts ⟨(i 0).val / 10000, ht⟩
  refine ⟨⟨(i 0).val / 10000, ht⟩, flush0_5 _, ?_⟩
  rw [mem_blk]
  intro a
  match a with
  | ⟨0, _⟩ =>
    show win0_5.index ⟨(i 0).val / 10000, ht⟩ (0 : Fin 2) * 10000 ≤ (i 0).val ∧ (i 0).val < win0_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, ht⟩ (1 : Fin 2) * 64 ≤ (i 1).val ∧ (i 1).val < win0_5.index ⟨(i 0).val / 10000, ht⟩ (1 : Fin 2) * 64 + 64
    rw [e1]; omega

/-- After the region its result array holds `whole` of the arrays the region found. -/
theorem array_after (c : Dev nD) :
    (dat0 V c).arrAt 5 cfg0.N = whole (V c main_v24) (V c main_arg0) (V c main_v27) (V c main_v28) (V c main_v29) :=
  (dat0 V c).arrAt_eq_of_cover 5 _ (fun t _ => flushed V c t) cover

end Cert.KernelIdeal.FirstLayer

end
-- ==== Proof.SecondLayerBlocks.lean ====
/-
  The second kernel region's result array as one function of the arrays the region finds.

  The same walk as the first region over ten blocks of 10000 rows, with 32 output features and no clamp at zero: at a
  point t the block of the second mean matrix and the block of the hidden features (rows 10000·t … 10000·t + 9999) are
  multiplied by the two whole 64×32 weight matrices on the matrix unit, the two products and the bias row are added, and
  the block is written back to the same rows of the result.
-/
import proofs.«168772_j3186865734220_1_alg».proof.Proof.Gen.KernelIdeal.Frame
import proofs.«168772_j3186865734220_1_alg».proof.Proof.MeanLayers
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.SecondLayer

open Cert.KernelIdeal Cert.KernelIdeal.Gen

theorem hz : (![0, 0] : Fin 2 → Nat) = fun _ => 0 := funext fun a => by fin_cases a <;> rfl

/-! ## The matrix unit's product of a block with a 64×32 weight matrix, at an entry -/

theorem lhs_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhs_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhs_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Entry (p, j) of the product accumulated into zero: the sum over k of row p of the block times column j of the
    weights. -/
theorem product_apply (x : FVec Ideal S10000x64 .bf16) (w : FVec Ideal S64x32 .bf16) (p : Fin 10000) (j : Fin 32) :
    matmul dot_S10000x64_S64x32_S10000x32_1_0_0_1_n_n none x w (constant S10000x32 .f32 0x00000000#32) (ix2 p j)
      = ∑ k : Fin 64, x (ix2 p k) * w (ix2 k j) := by
  refine (Ideal.matmul_constant_zero_apply dot_S10000x64_S64x32_S10000x32_1_0_0_1_n_n none x w (ix2 p j)).trans ?_
  rw [← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 p j) ((ValueIdx.contrEquiv1 dot_S10000x64_S64x32_S10000x32_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x32_S10000x32_1_0_0_1_n_n.rhsIdx (ix2 p j) ((ValueIdx.contrEquiv1 dot_S10000x64_S64x32_S10000x32_1_0_0_1_n_n 64 rfl rfl).symm k) = ix2 k j := funext fun a => Fin.ext (by
    match a with
    | ⟨0, _⟩ => exact (rhs_0 _ _).trans hk
    | ⟨1, _⟩ => exact rhs_1 _ _)
  rw [el, er]

/-! ## What the body stores, at an entry -/

/-- The stored value at (p, j), from the five loaded blocks: both products and the bias row's entry j. -/
theorem stored_apply (x0 x1 : FVec Ideal S10000x64 .f32) (w2 w4 : FVec Ideal S64x32 .bf16) (b3 : FVec Ideal S1x32 .f32)
    (p : Fin 10000) (j : Fin 32) :
    k1_pay1 (F := Ideal) x0 x1 w2 w4 b3 (ix2 p j)
      = ((∑ k : Fin 64, x0 (ix2 p k) * w2 (ix2 k j)) + ∑ k : Fin 64, x1 (ix2 p k) * w4 (ix2 k j)) + b3 (ix2 (0 : Fin 1) j) := by
  unfold k1_pay1
  show (matmul dot_S10000x64_S64x32_S10000x32_1_0_0_1_n_n none _ _ (constant S10000x32 .f32 0x00000000#32) (ix2 p j)
      + matmul dot_S10000x64_S64x32_S10000x32_1_0_0_1_n_n none _ _ (constant S10000x32 .f32 0x00000000#32) (ix2 p j))
      + broadcastTo S10000x32 (shapeCast S1x32 b3 shapeCasts_S1x32_S1x32) broadcasts_S1x32_S10000x32 (ix2 p j) = _
  rw [product_apply, product_apply, broadcastTo_1b_ab_apply, shapeCast_self, shapeCast_self, shapeCast_self, shapeCast_self, shapeCast_self]
  rfl

/-! ## The blocks are rows of the arrays -/

variable (V : (c : Dev nD) → (b : Ref sig .tc) → Buf (Elt Ideal) ((c : Thread nD τ).loc b))

/-- The printed index maps over the grid: the two row-blocked inputs and the output are at block row t, column block 0;
    the weights and the bias row are at block (0, 0) at every point. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the block at point t is row 10000·t + p of the array. -/
def rowAt (t : Fin cfg1.N) (p : Fin 10000) : Fin 100000 :=
  ⟨t.val * 10000 + p.val, by
    have h : t.val < 10 := lt_of_lt_of_eq t.isLt N_1
    have := p.isLt
    omega⟩

theorem mean_block (c : Dev nD) (t : Fin cfg1.N) (p : Fin 10000) (k : Fin 64) :
    (iblk1 V c 0 t : FVec Ideal S10000x64 .f32) (ix2 p k) = (V c main_v42 : FVec Ideal S100000x64 .f32) (ix2 (rowAt t p) k) := by
  obtain ⟨e0, e1, -⟩ := index_facts t
  unfold iblk1
  rw [View.read_apply]
  show V c main_v42 _ = V c main_v42 _
  congr 1
  funext a; apply Fin.ext
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

theorem feature_block (c : Dev nD) (t : Fin cfg1.N) (p : Fin 10000) (k : Fin 64) :
    (iblk1 V c 1 t : FVec Ideal S10000x64 .f32) (ix2 p k) = (V c main_v30 : FVec Ideal S100000x64 .f32) (ix2 (rowAt t p) k) := by
  obtain ⟨-, -, e0, e1, -⟩ := index_facts t
  unfold iblk1
  rw [View.read_apply]
  show V c main_v30 _ = V c main_v30 _
  congr 1
  funext a; apply Fin.ext
  match a with
  | ⟨0, _⟩ => show win1_1.index t (0 : Fin 2) * 10000 + 1 * p.val = t.val * 10000 + p.val; rw [e0]; omega
  | ⟨1, _⟩ => show win1_1.index t (1 : Fin 2) * 64 + 1 * k.val = k.val; rw [e1]; omega

theorem left_weights_block (c : Dev nD) (t : Fin cfg1.N) (k : Fin 64) (j : Fin 32) :
    (iblk1 V c 2 t : FVec Ideal S64x32 .bf16) (ix2 k j) = (V c main_v45 : FVec Ideal S64x32 .bf16) (ix2 k j) := by
  obtain ⟨-, -, -, -, e0, e1, -⟩ := index_facts t
  unfold iblk1
  rw [View.read_apply]
  show V c main_v45 _ = V c main_v45 _
  congr 1
  funext a; apply Fin.ext
  match a with
  | ⟨0, _⟩ => show win1_2.index t (0 : Fin 2) * 64 + 1 * k.val = k.val; rw [e0]; omega
  | ⟨1, _⟩ => show win1_2.index t (1 : Fin 2) * 32 + 1 * j.val = j.val; rw [e1]; omega

theorem bias_block (c : Dev nD) (t : Fin cfg1.N) (j : Fin 32) :
    (iblk1 V c 3 t : FVec Ideal S1x32 .f32) (ix2 (0 : Fin 1) j) = (V c main_v47 : FVec Ideal S1x32 .f32) (ix2 (0 : Fin 1) j) := by
  obtain ⟨-, -, -, -, -, -, e0, e1, -⟩ := index_facts t
  unfold iblk1
  rw [View.read_apply]
  show V c main_v47 _ = V c main_v47 _
  congr 1
  funext a; apply Fin.ext
  match a with
  | ⟨0, _⟩ => show win1_3.index t (0 : Fin 2) * 1 + 1 * 0 = 0; rw [e0]
  | ⟨1, _⟩ => show win1_3.index t (1 : Fin 2) * 32 + 1 * j.val = j.val; rw [e1]; omega

theorem right_weights_block (c : Dev nD) (t : Fin cfg1.N) (k : Fin 64) (j : Fin 32) :
    (iblk1 V c 4 t : FVec Ideal S64x32 .bf16) (ix2 k j) = (V c main_v46 : FVec Ideal S64x32 .bf16) (ix2 k j) := by
  obtain ⟨-, -, -, -, -, -, -, -, e0, e1, -⟩ := index_facts t
  unfold iblk1
  rw [View.read_apply]
  show V c main_v46 _ = V c main_v46 _
  congr 1
  funext a; apply Fin.ext
  match a with
  | ⟨0, _⟩ => show win1_4.index t (0 : Fin 2) * 64 + 1 * k.val = k.val; rw [e0]; omega
  | ⟨1, _⟩ => show win1_4.index t (1 : Fin 2) * 32 + 1 * j.val = j.val; rw [e1]; omega

/-! ## The result array -/

/-- The whole result: at node n and feature j, both products of row n with the weights, and the bias. -/
def whole (Mn X : MeanLayers.Mat 100000 64) (wl wr : MeanLayers.Mat 64 32) (b : MeanLayers.Mat 1 32) : MeanLayers.Mat 100000 32 :=
  MeanLayers.ofEntries fun n j =>
    ((∑ k : Fin 64, Mn (ix2 n k) * wl (ix2 k j)) + ∑ k : Fin 64, X (ix2 n k) * wr (ix2 k j)) + b (ix2 (0 : Fin 1) j)

/-- What point t writes back is block t of `whole` of the arrays the region finds. -/
theorem flushed (c : Dev nD) (t : Fin cfg1.N) :
    (dat1 V c).flushed 5 t = ((cfg1.win 5).blk t).view.read (Elt Ideal)
      (whole (V c main_v42) (V c main_v30) (V c main_v45) (V c main_v46) (V c main_v47)) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x32) hz, View.ld_unit_zero (S := S1x32) hz]
  funext y
  obtain ⟨p, j, rfl⟩ : ∃ (p : Fin 10000) (j : Fin 32), y = ix2 p j := ⟨y 0, y 1, eq_ix2 y⟩
  refine (stored_apply _ _ _ _ _ p j).trans ?_
  rw [View.read_apply]
  have hemb : ((cfg1.win 5).blk t).view.emb (ix2 p j) = ix2 (rowAt t p) j := by
    obtain ⟨-, -, -, -, -, -, -, -, -, -, e0, e1⟩ := index_facts t
    funext a; apply Fin.ext
    match a with
    | ⟨0, _⟩ => show win1_5.index t (0 : Fin 2) * 10000 + 1 * p.val = t.val * 10000 + p.val; rw [e0]; omega
    | ⟨1, _⟩ => show win1_5.index t (1 : Fin 2) * 32 + 1 * j.val = j.val; rw [e1]; omega
  rw [hemb]
  unfold whole
  rw [MeanLayers.ofEntries_ix2]
  simp only [mean_block, feature_block, left_weights_block, right_weights_block, bias_block]
  rfl

/-- An index of the result is in point t's block iff each coordinate is in the block's range on its axis. -/
theorem mem_blk (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v48).slice (win1_5.rect t)).set ↔ _
  rw [View.set_slice_whole, Rect.mem_set_unit]
  exact Iff.rfl

/-- Row r lies in the block of point r / 10000. -/
theorem cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have ht : (i 0).val / 10000 < cfg1.N := by rw [show cfg1.N = 10 from N_1]; omega
  obtain ⟨-, -, -, -, -, -, -, -, -, -, e0, e1⟩ := index_facts ⟨(i 0).val / 10000, ht⟩
  refine ⟨⟨(i 0).val / 10000, ht⟩, flush1_5 _, ?_⟩
  rw [mem_blk]
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, ht⟩ (1 : Fin 2) * 32 ≤ (i 1).val ∧ (i 1).val < win1_5.index ⟨(i 0).val / 10000, ht⟩ (1 : Fin 2) * 32 + 32
    rw [e1]; omega

/-- After the region its result array holds `whole` of the arrays the region found. -/
theorem array_after (c : Dev nD) :
    (dat1 V c).arrAt 5 cfg1.N = whole (V c main_v42) (V c main_v30) (V c main_v45) (V c main_v46) (V c main_v47) :=
  (dat1 V c).arrAt_eq_of_cover 5 _ (fun t _ => flushed V c t) cover

end Cert.KernelIdeal.SecondLayer

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.KernelArrays.lean ====
/-
  The kernel program's result array as the two mean-aggregation layers of its arguments.

  Between the launch and the first region the host operations build, from the edge list, the source and target node of
  every edge, the per-node edge count, its clamped reciprocal as a column, the sum of the source rows over the edges into
  each node, and that sum times the reciprocal column (the mean); they transpose and narrow the weights and make the bias
  a row. The first region turns these into the hidden features. Between the regions the host operations build the second
  mean from the hidden features with the same edge list and the same reciprocal column, and the second region gives the
  result. Every buffer a stretch reads is read back to the arguments here, and the two region results are put in the
  form of the layers' specification: the mean as a quotient by the clamped count, the transposed weights read back at
  the weight matrices' own entries, the bias last or in the middle.
-/
import proofs.«168772_j3186865734220_1_alg».proof.Proof.KernelRunNamed
import proofs.«168772_j3186865734220_1_alg».proof.Proof.FirstLayerBlocks
import proofs.«168772_j3186865734220_1_alg».proof.Proof.SecondLayerBlocks
import proofs.«168772_j3186865734220_1_alg».proof.Proof.LibRowLayers
import Idealize.ShloMosaic.Lib.StableHlo.Run

set_option maxRecDepth 16384

noncomputable section

open scoped BigOperators
open Idealize.ShloMosaic Idealize.ShloMosaic.TcCoe Idealize.SL.Sem Idealize.ShloMosaic.ValueIdx Idealize.ShloMosaic.StableHlo

namespace Cert.KernelIdeal.Arrays

open Cert.KernelIdeal Cert.KernelIdeal.Gen

/-! ## The edge list's sums, as the host operations spell them -/

section Chain

variable {F : FTy → Type} [FloatOps F]

/-- The source node of every edge: row 0 of the edge list. -/
def sources (e : (⟨S2x1000000, .i32⟩ : BufTy).Contents (Elt F)) : (⟨S1000000, .i32⟩ : BufTy).Contents (Elt F) :=
  shapeCast S1000000 (extractStridedSlice S1x1000000 ![0, 0] e slices_S2x1000000_S1x1000000_0_0) shapeCasts_S1x1000000_S1000000

/-- The target node of every edge: row 1 of the edge list. -/
def targets (e : (⟨S2x1000000, .i32⟩ : BufTy).Contents (Elt F)) : (⟨S1000000, .i32⟩ : BufTy).Contents (Elt F) :=
  shapeCast S1000000 (extractStridedSlice S1x1000000 ![1, 0] e slices_S2x1000000_S1x1000000_1_0) shapeCasts_S1x1000000_S1000000

/-- The source nodes as a column of row numbers, a negative number counted from the end. -/
def sourceRows (e : (⟨S2x1000000, .i32⟩ : BufTy).Contents (Elt F)) : (⟨S1000000x1, .i32⟩ : BufTy).Contents (Elt F) :=
  broadcastInDim S1000000x1 ![0] bcast_S1000000_S1000000x1_0
    (select (cmpi .slt (sources e) (broadcastInDim S1000000 ![] bcast_S_S1000000 (constantI S_ 32 0#32)))
      (addi (sources e) (broadcastInDim S1000000 ![] bcast_S_S1000000 (constantI S_ 32 100000#32))) (sources e))

/-- The target nodes as a column. -/
def targetRows (e : (⟨S2x1000000, .i32⟩ : BufTy).Contents (Elt F)) : (⟨S1000000x1, .i32⟩ : BufTy).Contents (Elt F) :=
  broadcastInDim S1000000x1 ![0] bcast_S1000000_S1000000x1_0 (targets e)

/-- Row n: the sum of the source rows of X over the edges into n. -/
def edgeSum (e : (⟨S2x1000000, .i32⟩ : BufTy).Contents (Elt F)) (X : (⟨S100000x64, .f32⟩ : BufTy).Contents (Elt F)) :
    (⟨S100000x64, .f32⟩ : BufTy).Contents (Elt F) :=
  Host.scatterAdd scatter_S100000x64_S1000000x1_S1000000x64_1_0_0_1
    (broadcastInDim S100000x64 ![] bcast_S_S100000x64 (constant S_ .f32 0x00000000#32)) (targetRows e)
    (Host.gather gather_S100000x64_S1000000x1_S1000000x64_1_0_n_n_0_1_164 X (sourceRows e))

/-- Entry n: the number of edges into n. -/
def edgeCount (e : (⟨S2x1000000, .i32⟩ : BufTy).Contents (Elt F)) : (⟨S100000, .f32⟩ : BufTy).Contents (Elt F) :=
  Host.scatterAdd scatter_S100000_S1000000x1_S1000000_n_0_0_1
    (broadcastInDim S100000 ![] bcast_S_S100000 (constant S_ .f32 0x00000000#32)) (targetRows e)
    (broadcastInDim S1000000 ![] bcast_S_S1000000 (constant S_ .f32 0x3F800000#32))

/-- The reciprocal of the clamped count, as a column. -/
def recipColumn (e : (⟨S2x1000000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32))
      (maximumf (edgeCount e) (broadcastInDim S100000 ![] bcast_S_S100000 (constant S_ .f32 0x3F800000#32))))

/-- The mean as the host operations compute it: the edge sum times the reciprocal column. -/
def meanTimes (e : (⟨S2x1000000, .i32⟩ : BufTy).Contents (Elt F)) (X : (⟨S100000x64, .f32⟩ : BufTy).Contents (Elt F)) :
    (⟨S100000x64, .f32⟩ : BufTy).Contents (Elt F) :=
  mulf (edgeSum e X) (broadcastInDim S100000x64 ![0, 1] bcast_S100000x1_S100000x64_0_1 (recipColumn e))

end Chain

/-! ## What each stretch of host operations leaves for the region after it -/

section Reads

variable {F : FTy → Type} [FloatOps F]
variable (m : (ℓ : Loc nD τ sig) → Buf (Elt F) ℓ) (ρ : Dev nD → PrngReg)

theorem first_mean (c : Dev nD) :
    V1 m ρ c main_v24 = meanTimes (m ((c : Thread nD τ).loc main_arg1)) (m ((c : Thread nD τ).loc main_arg0)) := by
  show StableHlo.after hostOps0 (W0 m ρ c) (Proc.devRef .tc main_v24) = _
  after_results_simp
  rfl

theorem first_features (c : Dev nD) : V1 m ρ c main_arg0 = m ((c : Thread nD τ).loc main_arg0) := by
  show StableHlo.after hostOps0 (W0 m ρ c) (Proc.devRef .tc main_arg0) = _
  after_results_simp

theorem first_left (c : Dev nD) :
    V1 m ρ c main_v27 = truncf .bf16 (transpose S64x64 [1, 0] (m ((c : Thread nD τ).loc main_arg2)) transposes_S64x64_S64x64_1_0) bitsLt_bf16_f32 := by
  show StableHlo.after hostOps0 (W0 m ρ c) (Proc.devRef .tc main_v27) = _
  after_results_simp

theorem first_right (c : Dev nD) :
    V1 m ρ c main_v28 = truncf .bf16 (transpose S64x64 [1, 0] (m ((c : Thread nD τ).loc main_arg4)) transposes_S64x64_S64x64_1_0) bitsLt_bf16_f32 := by
  show StableHlo.after hostOps0 (W0 m ρ c) (Proc.devRef .tc main_v28) = _
  after_results_simp

theorem first_bias (c : Dev nD) :
    V1 m ρ c main_v29 = shapeCast S1x64 (m ((c : Thread nD τ).loc main_arg3)) shapeCasts_S64_S1x64 := by
  show StableHlo.after hostOps0 (W0 m ρ c) (Proc.devRef .tc main_v29) = _
  after_results_simp
  rfl

/-! The buffers the second stretch reads that the first region does not write are as the first stretch left them. -/

theorem mid_sources (c : Dev nD) : W2 m ρ c (Proc.devRef .tc main_v1) = sources (m ((c : Thread nD τ).loc main_arg1)) := by
  refine (W2_of_ne m ρ c main_v1 (by decide)).trans ?_
  show StableHlo.after hostOps0 (W0 m ρ c) (Proc.devRef .tc main_v1) = _
  after_results_simp
  rfl

theorem mid_targets (c : Dev nD) : W2 m ρ c (Proc.devRef .tc main_v3) = targets (m ((c : Thread nD τ).loc main_arg1)) := by
  refine (W2_of_ne m ρ c main_v3 (by decide)).trans ?_
  show StableHlo.after hostOps0 (W0 m ρ c) (Proc.devRef .tc main_v3) = _
  after_results_simp
  rfl

theorem mid_recip (c : Dev nD) : W2 m ρ c (Proc.devRef .tc main_v12) = recipColumn (m ((c : Thread nD τ).loc main_arg1)) := by
  refine (W2_of_ne m ρ c main_v12 (by decide)).trans ?_
  show StableHlo.after hostOps0 (W0 m ρ c) (Proc.devRef .tc main_v12) = _
  after_results_simp
  rfl

theorem mid_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp

theorem mid_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp

theorem mid_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp

theorem second_mean (c : Dev nD) :
    V3 m ρ c main_v42 = meanTimes (m ((c : Thread nD τ).loc main_arg1)) (W2 m ρ c (Proc.devRef .tc main_v30)) := by
  show StableHlo.after hostOps1 (W2 m ρ c) (Proc.devRef .tc main_v42) = _
  after_results_simp
  rw [mid_sources, mid_targets, mid_recip]
  rfl

theorem second_features (c : Dev nD) : V3 m ρ c main_v30 = W2 m ρ c (Proc.devRef .tc main_v30) := by
  show StableHlo.after hostOps1 (W2 m ρ c) (Proc.devRef .tc main_v30) = _
  after_results

theorem second_left (c : Dev nD) :
    V3 m ρ c main_v45 = truncf .bf16 (transpose S64x32 [1, 0] (m ((c : Thread nD τ).loc main_arg5)) transposes_S32x64_S64x32_1_0) bitsLt_bf16_f32 := by
  show StableHlo.after hostOps1 (W2 m ρ c) (Proc.devRef .tc main_v45) = _
  after_results
  rw [mid_arg5]

theorem second_right (c : Dev nD) :
    V3 m ρ c main_v46 = truncf .bf16 (transpose S64x32 [1, 0] (m ((c : Thread nD τ).loc main_arg7)) transposes_S32x64_S64x32_1_0) bitsLt_bf16_f32 := by
  show StableHlo.after hostOps1 (W2 m ρ c) (Proc.devRef .tc main_v46) = _
  after_results
  rw [mid_arg7]

theorem second_bias (c : Dev nD) :
    V3 m ρ c main_v47 = shapeCast S1x32 (m ((c : Thread nD τ).loc main_arg6)) shapeCasts_S32_S1x32 := by
  show StableHlo.after hostOps1 (W2 m ρ c) (Proc.devRef .tc main_v47) = _
  after_results
  rw [mid_arg6]
  rfl

end Reads

/-! ## The mean, and the two region results, in the specification's form -/

section Ideal

/-- The mean as the host operations compute it — the edge sum times the reciprocal of the clamped count — is the quotient
    of the edge sum by the clamped count: the count's clamp is at least one, so it is not zero. -/
theorem meanTimes_eq (e : (⟨S2x1000000, .i32⟩ : BufTy).Contents (Elt Ideal)) (X : (⟨S100000x64, .f32⟩ : BufTy).Contents (Elt Ideal)) :
    meanTimes (F := Ideal) e X = MeanLayers.nbrMean (edgeSum (F := Ideal) e) (edgeCount (F := Ideal) e) X :=
  MeanLayers.ext_ix2 fun n k => by
    unfold meanTimes recipColumn
    rw [mulf_apply, RowLayers.columnAcross_apply, RowLayers.columnBroadcast_apply, RowLayers.hostDivf_apply, maximumf_apply,
      RowLayers.scalarBroadcast_apply, Ideal.ofBits_one_f32, MeanLayers.nbrMean_ix2]
    exact MeanLayers.mul_recip_eq_div _ _

/-- The first region's result, from the mean, the features, the transposed and narrowed weights and the bias row, is the
    specification's hidden features: the transposed weights read back at the weight matrices' own entries, the bias row's
    entry j the bias vector's, and the bias moved from last to the middle. -/
theorem first_whole_eq (A : MeanLayers.Mat 100000 64 → MeanLayers.Mat 100000 64) (cnt : MeanLayers.Row 100000)
    (x : (⟨S100000x64, .f32⟩ : BufTy).Contents (Elt Ideal))
    (W1l W1r : (⟨S64x64, .f32⟩ : BufTy).Contents (Elt Ideal)) (b1 : (⟨S64, .f32⟩ : BufTy).Contents (Elt Ideal)) :
    FirstLayer.whole (MeanLayers.nbrMean A cnt x) x
        (truncf (F := Ideal) .bf16 (transpose S64x64 [1, 0] W1l transposes_S64x64_S64x64_1_0) bitsLt_bf16_f32)
        (truncf (F := Ideal) .bf16 (transpose S64x64 [1, 0] W1r transposes_S64x64_S64x64_1_0) bitsLt_bf16_f32)
        (shapeCast S1x64 b1 shapeCasts_S64_S1x64)
      = MeanLayers.hidden A cnt x W1l W1r b1 :=
  MeanLayers.ext_ix2 fun n j => by
    unfold FirstLayer.whole
    rw [MeanLayers.ofEntries_ix2, MeanLayers.hidden_ix2, ← MeanLayers.conv_of_bias_last]
    have tl : ∀ k : Fin 64, transpose S64x64 [1, 0] W1l transposes_S64x64_S64x64_1_0 (ix2 k j) = W1l (ix2 j k) :=
      fun k => transpose_ix2_apply W1l transposes_S64x64_S64x64_1_0 k j
    have tr : ∀ k : Fin 64, transpose S64x64 [1, 0] W1r transposes_S64x64_S64x64_1_0 (ix2 k j) = W1r (ix2 j k) :=
      fun k => transpose_ix2_apply W1r transposes_S64x64_S64x64_1_0 k j
    simp only [truncf_apply, shapeCast_a_1a_apply, tl, tr]

/-- The second region's result in the same way, with no clamp at zero. -/
theorem second_whole_eq (A : MeanLayers.Mat 100000 64 → MeanLayers.Mat 100000 64) (cnt : MeanLayers.Row 100000)
    (H : (⟨S100000x64, .f32⟩ : BufTy).Contents (Elt Ideal))
    (W2l W2r : (⟨S32x64, .f32⟩ : BufTy).Contents (Elt Ideal)) (b2 : (⟨S32, .f32⟩ : BufTy).Contents (Elt Ideal)) :
    SecondLayer.whole (MeanLayers.nbrMean A cnt H) H
        (truncf (F := Ideal) .bf16 (transpose S64x32 [1, 0] W2l transposes_S32x64_S64x32_1_0) bitsLt_bf16_f32)
        (truncf (F := Ideal) .bf16 (transpose S64x32 [1, 0] W2r transposes_S32x64_S64x32_1_0) bitsLt_bf16_f32)
        (shapeCast S1x32 b2 shapeCasts_S32_S1x32)
      = MeanLayers.ofEntries (MeanLayers.conv (MeanLayers.nbrMean A cnt H) H W2l W2r b2) :=
  MeanLayers.ext_ix2 fun n j => by
    unfold SecondLayer.whole
    rw [MeanLayers.ofEntries_ix2, MeanLayers.ofEntries_ix2, ← MeanLayers.conv_of_bias_last]
    have tl : ∀ k : Fin 64, transpose S64x32 [1, 0] W2l transposes_S32x64_S64x32_1_0 (ix2 k j) = W2l (ix2 j k) :=
      fun k => transpose_ix2_apply W2l transposes_S32x64_S64x32_1_0 k j
    have tr : ∀ k : Fin 64, transpose S64x32 [1, 0] W2r transposes_S32x64_S64x32_1_0 (ix2 k j) = W2r (ix2 j k) :=
      fun k => transpose_ix2_apply W2r transposes_S32x64_S64x32_1_0 k j
    simp only [truncf_apply, shapeCast_a_1a_apply, tl, tr]

variable (m : (ℓ : Loc nD τ sig) → Buf (Elt Ideal) ℓ) (ρ : Dev nD → PrngReg)

/-- The kernel program's result: the two layers of its arguments, with its own spelling of the edge sums. -/
def result (c : Dev nD) : Buf (Elt Ideal) ((c.tc : Thread nD τ).loc main_v48) :=
  MeanLayers.output (edgeSum (F := Ideal) (m ((c : Thread nD τ).loc main_arg1))) (edgeCount (F := Ideal) (m ((c : Thread nD τ).loc main_arg1)))
    (m ((c : Thread nD τ).loc main_arg0)) (m ((c : Thread nD τ).loc main_arg2)) (m ((c : Thread nD τ).loc main_arg4))
    (m ((c : Thread nD τ).loc main_arg3)) (m ((c : Thread nD τ).loc main_arg5)) (m ((c : Thread nD τ).loc main_arg7))
    (m ((c : Thread nD τ).loc main_arg6))

/-- After the first region its result array holds the hidden features of the arguments. -/
theorem hidden_array (c : Dev nD) :
    W2 m ρ c (Proc.devRef .tc main_v30)
      = MeanLayers.hidden (edgeSum (F := Ideal) (m ((c : Thread nD τ).loc main_arg1))) (edgeCount (F := Ideal) (m ((c : Thread nD τ).loc main_arg1)))
          (m ((c : Thread nD τ).loc main_arg0)) (m ((c : Thread nD τ).loc main_arg2)) (m ((c : Thread nD τ).loc main_arg4))
          (m ((c : Thread nD τ).loc main_arg3)) := by
  refine (W2_arr m ρ c 5).trans ?_
  refine (FirstLayer.array_after (V1 m ρ) c).trans ?_
  rw [first_mean, first_features, first_left, first_right, first_bias, meanTimes_eq]
  exact first_whole_eq _ _ _ _ _ _

/-- After the second region the result array holds `result`. -/
theorem result_array (c : Dev nD) : W4 m ρ c (Proc.devRef .tc main_v48) = result m c := by
  refine (W4_arr m ρ c 5).trans ?_
  refine (SecondLayer.array_after (V3 m ρ) c).trans ?_
  rw [second_mean, second_features, second_left, second_right, second_bias, hidden_array, meanTimes_eq]
  exact second_whole_eq _ _ _ _ _ _

/-- The run of the kernel program, read: the result array at `result`, the arguments unchanged. -/
theorem run : θ_run defs (onTc (τ := τ) (main (F := Ideal))) ⟨m, fun _ => 0, ρ⟩ (fun r => ∀ c : Dev nD,
      r.2.mem ((c.tc : Thread nD τ).loc main_v48) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_array m ρ c), (h c).2⟩)
    (Cert.KernelIdeal.Named.run_named (F := Ideal) m ρ)

end Ideal

end Cert.KernelIdeal.Arrays

end
-- ==== Proof.ReferenceLayers.lean ====
/-
  The reference program's result as the two mean-aggregation layers of its arguments.

  The reference's host operations, read one at a time at an index: the clamped edge count broadcast to a column and
  across the features, the edge sum divided by it (the mean), the plain product of the mean with the transposed left
  weights, the bias broadcast down the rows, the product of the features with the transposed right weights, and the
  larger of the sum and zero; then the same again from the hidden features. The edge sum and the edge count are the
  gather and scatter-add of the edge list, kept as they stand.
-/
import proofs.«168772_j3186865734220_1_alg».proof.Proof.Gen.ReferenceIdeal.Read
import proofs.«168772_j3186865734220_1_alg».proof.Proof.MeanLayers
import Idealize.ShloMosaic.PureOps.Ideal.Laws
import Idealize.ShloMosaic.Lib.ValueIdx
import Idealize.ShloMosaic.Lib.IdealHost

set_option maxRecDepth 16384

noncomputable section

open scoped BigOperators
open Idealize.ShloMosaic Idealize.ShloMosaic.TcCoe Idealize.SL.Sem Idealize.ShloMosaic.ValueIdx

namespace Cert.ReferenceIdeal.Layers

open Cert.ReferenceIdeal Cert.ReferenceIdeal.Gen Cert.ReferenceIdeal.Read

/-- Row n: the sum of the source rows of X over the edges into n, as the reference spells it. -/
abbrev edgeSum (e : (⟨S2x1000000, .i32⟩ : BufTy).Contents (Elt Ideal)) (X : (⟨S100000x64, .f32⟩ : BufTy).Contents (Elt Ideal)) :
    (⟨S100000x64, .f32⟩ : BufTy).Contents (Elt Ideal) := val_main_v13 (F := Ideal) X e

/-- Entry n: the number of edges into n, as the reference spells it. -/
abbrev edgeCount (e : (⟨S2x1000000, .i32⟩ : BufTy).Contents (Elt Ideal)) : (⟨S100000, .f32⟩ : BufTy).Contents (Elt Ideal) :=
  val_main_v17 (F := Ideal) e

/-! ## The composed index maps at an entry -/

theorem column_of (n : Fin 100000) (k : Fin 64) : idx_main_v20 (idx_main_v21 (ix2 n k)) = ix1 n :=
  funext fun a => Fin.ext (by match a with | ⟨0, _⟩ => rfl)
theorem left_l (n : Fin 100000) (j k : Fin 64) : lidx_main_v24 (ix2 n j) k = ix2 n k :=
  funext fun a => Fin.ext (by match a with | ⟨0, _⟩ => rfl | ⟨1, _⟩ => rfl)
theorem left_r (n : Fin 100000) (j k : Fin 64) : idx_main_v23 (ridx_main_v24 (ix2 n j) k) = ix2 j k :=
  funext fun a => Fin.ext (by match a with | ⟨0, _⟩ => rfl | ⟨1, _⟩ => rfl)
theorem bias_of (n : Fin 100000) (j : Fin 64) : idx_main_v25 (idx_main_v26 (ix2 n j)) = ix1 j :=
  funext fun a => Fin.ext (by match a with | ⟨0, _⟩ => rfl)
theorem right_l (n : Fin 100000) (j k : Fin 64) : lidx_main_v29 (ix2 n j) k = ix2 n k :=
  funext fun a => Fin.ext (by match a with | ⟨0, _⟩ => rfl | ⟨1, _⟩ => rfl)
theorem right_r (n : Fin 100000) (j k : Fin 64) : idx_main_v28 (ridx_main_v29 (ix2 n j) k) = ix2 j k :=
  funext fun a => Fin.ext (by match a with | ⟨0, _⟩ => rfl | ⟨1, _⟩ => rfl)

/-! ## The first layer -/

/-- The clamped count across the features, at (n, k). -/
theorem clamp_apply (e : (⟨S2x1000000, .i32⟩ : BufTy).Contents (Elt Ideal)) (n : Fin 100000) (k : Fin 64) :
    val_main_v21 (F := Ideal) e (ix2 n k) = max (edgeCount e (ix1 n)) 1 := by
  rw [val_main_v21_apply, val_main_v20_apply, column_of, val_main_v19_apply, val_main_v18_apply, val_main_cst_3_apply]
  show max _ (Ideal.ofBits .f32 0x3F800000#32) = _
  rw [Ideal.ofBits_one_f32]

/-- The reference's first mean is the specification's. -/
theorem mean_eq (x : (⟨S100000x64, .f32⟩ : BufTy).Contents (Elt Ideal)) (e : (⟨S2x1000000, .i32⟩ : BufTy).Contents (Elt Ideal)) :
    val_main_v22 (F := Ideal) x e = MeanLayers.nbrMean (edgeSum e) (edgeCount e) x :=
  MeanLayers.ext_ix2 fun n k => by
    rw [val_main_v22_apply, clamp_apply, MeanLayers.nbrMean_ix2]
    rfl

/-- The reference's hidden features are the specification's. -/
theorem hidden_eq (x : (⟨S100000x64, .f32⟩ : BufTy).Contents (Elt Ideal)) (e : (⟨S2x1000000, .i32⟩ : BufTy).Contents (Elt Ideal))
    (W1l : (⟨S64x64, .f32⟩ : BufTy).Contents (Elt Ideal)) (b1 : (⟨S64, .f32⟩ : BufTy).Contents (Elt Ideal))
    (W1r : (⟨S64x64, .f32⟩ : BufTy).Contents (Elt Ideal)) :
    val_main_v31 (F := Ideal) x e W1l b1 W1r = MeanLayers.hidden (edgeSum e) (edgeCount e) x W1l W1r b1 :=
  MeanLayers.ext_ix2 fun n j => by
    rw [val_main_v31_apply, val_main_v30_apply, val_main_v27_apply, val_main_v24_apply, val_main_v29_apply,
      val_main_v26_apply, val_main_v25_apply, bias_of, val_main_call0_v0_apply, val_main_call0_cst_apply, MeanLayers.hidden_ix2]
    simp only [left_l, right_l, val_main_v23_apply, val_main_v28_apply, left_r, right_r, mean_eq]
    show max _ (Ideal.ofBits .f32 0x00000000#32) = _
    rw [Ideal.ofBits_zero_f32]
    rfl

/-! ## The second layer -/

theorem column_of' (n : Fin 100000) (k : Fin 64) : idx_main_v48 (idx_main_v49 (ix2 n k)) = ix1 n :=
  funext fun a => Fin.ext (by match a with | ⟨0, _⟩ => rfl)
theorem left_l' (n : Fin 100000) (j : Fin 32) (k : Fin 64) : lidx_main_v52 (ix2 n j) k = ix2 n k :=
  funext fun a => Fin.ext (by match a with | ⟨0, _⟩ => rfl | ⟨1, _⟩ => rfl)
theorem left_r' (n : Fin 100000) (j : Fin 32) (k : Fin 64) : idx_main_v51 (ridx_main_v52 (ix2 n j) k) = ix2 j k :=
  funext fun a => Fin.ext (by match a with | ⟨0, _⟩ => rfl | ⟨1, _⟩ => rfl)
theorem bias_of' (n : Fin 100000) (j : Fin 32) : idx_main_v53 (idx_main_v54 (ix2 n j)) = ix1 j :=
  funext fun a => Fin.ext (by match a with | ⟨0, _⟩ => rfl)
theorem right_l' (n : Fin 100000) (j : Fin 32) (k : Fin 64) : lidx_main_v57 (ix2 n j) k = ix2 n k :=
  funext fun a => Fin.ext (by match a with | ⟨0, _⟩ => rfl | ⟨1, _⟩ => rfl)
theorem right_r' (n : Fin 100000) (j : Fin 32) (k : Fin 64) : idx_main_v56 (ridx_main_v57 (ix2 n j) k) = ix2 j k :=
  funext fun a => Fin.ext (by match a with | ⟨0, _⟩ => rfl | ⟨1, _⟩ => rfl)

/-- The second layer counts the edges again, with the same operations. -/
theorem count_again (e : (⟨S2x1000000, .i32⟩ : BufTy).Contents (Elt Ideal)) : val_main_v45 (F := Ideal) e = edgeCount e := rfl

/-- The second layer sums over the edges again, with the same operations, from the hidden features. -/
theorem sum_again (x : (⟨S100000x64, .f32⟩ : BufTy).Contents (Elt Ideal)) (e : (⟨S2x1000000, .i32⟩ : BufTy).Contents (Elt Ideal))
    (W1l : (⟨S64x64, .f32⟩ : BufTy).Contents (Elt Ideal)) (b1 : (⟨S64, .f32⟩ : BufTy).Contents (Elt Ideal))
    (W1r : (⟨S64x64, .f32⟩ : BufTy).Contents (Elt Ideal)) :
    val_main_v41 (F := Ideal) x e W1l b1 W1r = edgeSum e (val_main_v31 (F := Ideal) x e W1l b1 W1r) := rfl

/-- The clamped count across the features again, at (n, k). -/
theorem clamp_apply' (e : (⟨S2x1000000, .i32⟩ : BufTy).Contents (Elt Ideal)) (n : Fin 100000) (k : Fin 64) :
    val_main_v49 (F := Ideal) e (ix2 n k) = max (edgeCount e (ix1 n)) 1 := by
  rw [val_main_v49_apply, val_main_v48_apply, column_of', val_main_v47_apply, val_main_v46_apply, val_main_cst_9_apply, count_again]
  show max _ (Ideal.ofBits .f32 0x3F800000#32) = _
  rw [Ideal.ofBits_one_f32]

/-- The reference's second mean is the specification's, of the hidden features. -/
theorem mean_eq' (x : (⟨S100000x64, .f32⟩ : BufTy).Contents (Elt Ideal)) (e : (⟨S2x1000000, .i32⟩ : BufTy).Contents (Elt Ideal))
    (W1l : (⟨S64x64, .f32⟩ : BufTy).Contents (Elt Ideal)) (b1 : (⟨S64, .f32⟩ : BufTy).Contents (Elt Ideal))
    (W1r : (⟨S64x64, .f32⟩ : BufTy).Contents (Elt Ideal)) :
    val_main_v50 (F := Ideal) x e W1l b1 W1r
      = MeanLayers.nbrMean (edgeSum e) (edgeCount e) (MeanLayers.hidden (edgeSum e) (edgeCount e) x W1l W1r b1) :=
  MeanLayers.ext_ix2 fun n k => by
    rw [val_main_v50_apply, clamp_apply', sum_again, hidden_eq, MeanLayers.nbrMean_ix2]
    rfl

/-- The reference's result is the specification's output. -/
theorem result_eq (x : (⟨S100000x64, .f32⟩ : BufTy).Contents (Elt Ideal)) (e : (⟨S2x1000000, .i32⟩ : BufTy).Contents (Elt Ideal))
    (W1l : (⟨S64x64, .f32⟩ : BufTy).Contents (Elt Ideal)) (b1 : (⟨S64, .f32⟩ : BufTy).Contents (Elt Ideal))
    (W1r : (⟨S64x64, .f32⟩ : BufTy).Contents (Elt Ideal))
    (W2l : (⟨S32x64, .f32⟩ : BufTy).Contents (Elt Ideal)) (b2 : (⟨S32, .f32⟩ : BufTy).Contents (Elt Ideal))
    (W2r : (⟨S32x64, .f32⟩ : BufTy).Contents (Elt Ideal)) :
    val_main_v58 (F := Ideal) x e W1l b1 W1r W2l b2 W2r
      = MeanLayers.output (edgeSum e) (edgeCount e) x W1l W1r b1 W2l W2r b2 :=
  MeanLayers.ext_ix2 fun n j => by
    rw [val_main_v58_apply, val_main_v55_apply, val_main_v52_apply, val_main_v57_apply,
      val_main_v54_apply, val_main_v53_apply, bias_of', MeanLayers.output_ix2]
    simp only [left_l', right_l', val_main_v51_apply, val_main_v56_apply, left_r', right_r', mean_eq', hidden_eq]
    rfl

end Cert.ReferenceIdeal.Layers

end
-- ==== Proof.lean ====
/-
  The kernel program and its reference compute the same two layers of mean aggregation over a graph.

  Both programs gather the source node's row for every edge and scatter-add it onto the edge's target node, count the
  edges into each node with the same scatter-add, and clamp the count below at one; they apply the same operations to the
  same edge list, so the edge sum and the edge count are one function of the arguments in both, and nothing here looks
  inside them. On top of that each layer is  mean · Wlᵀ + b + X · Wrᵀ.  The kernel multiplies the edge sum by the
  reciprocal of the clamped count where the reference divides by it: the clamped count is at least one, so it is not
  zero, and both are the product with its inverse, on every extended real. The kernel forms the two products of a block
  of 10000 rows on the matrix unit from weights the host has already transposed, and adds the bias last, where the
  reference adds it between the products: addition of extended reals is commutative and associative, and a product
  accumulated into zero is the plain sum. A narrowing of the float format is the identity on extended reals. The ten
  blocks tile the rows. No step needs the inputs to be finite, so the precondition is never opened.

  The idealization rewrote no operation, so that conjunct is trivial.
-/
import proofs.«168772_j3186865734220_1_alg».proof.Defs
import proofs.«168772_j3186865734220_1_alg».proof.Proof.Gen.Kernel
import proofs.«168772_j3186865734220_1_alg».proof.Proof.Gen.Kernel.Skeleton
import proofs.«168772_j3186865734220_1_alg».proof.Proof.Gen.Kernel.Launch
import proofs.«168772_j3186865734220_1_alg».proof.Proof.Gen.Kernel.Points
import proofs.«168772_j3186865734220_1_alg».proof.Proof.Gen.Kernel.Frame
import proofs.«168772_j3186865734220_1_alg».proof.Proof.Gen.KernelIdeal
import proofs.«168772_j3186865734220_1_alg».proof.Proof.Gen.KernelIdeal.Skeleton
import proofs.«168772_j3186865734220_1_alg».proof.Proof.Gen.KernelIdeal.Launch
import proofs.«168772_j3186865734220_1_alg».proof.Proof.Gen.KernelIdeal.Points
import proofs.«168772_j3186865734220_1_alg».proof.Proof.Gen.KernelIdeal.Frame
import proofs.«168772_j3186865734220_1_alg».proof.Proof.Gen.ReferenceIdeal
import proofs.«168772_j3186865734220_1_alg».proof.Proof.Gen.Pre_finite_inputs
import proofs.«168772_j3186865734220_1_alg».proof.Proof.Gen.ReferenceIdeal.Run
import proofs.«168772_j3186865734220_1_alg».proof.Proof.Gen.ReferenceIdeal.Read
import proofs.«168772_j3186865734220_1_alg».proof.Proof.KernelArrays
import proofs.«168772_j3186865734220_1_alg».proof.Proof.ReferenceLayers
import Idealize.ShloMosaic.Adequacy
import Idealize.ShloMosaic.Init

noncomputable section

namespace Cert.Proof

open Idealize.ShloMosaic Idealize.SL.Sem

/-- The two programs' spellings of the sum over the edges are one function. -/
theorem edgeSum_same (e : (⟨Cert.KernelIdeal.S2x1000000, .i32⟩ : BufTy).Contents (Elt Ideal))
    (X : (⟨Cert.KernelIdeal.S100000x64, .f32⟩ : BufTy).Contents (Elt Ideal)) :
    Cert.ReferenceIdeal.Layers.edgeSum e X = Cert.KernelIdeal.Arrays.edgeSum (F := Ideal) e X := rfl

/-- The two programs' spellings of the edge count are one function. -/
theorem edgeCount_same (e : (⟨Cert.KernelIdeal.S2x1000000, .i32⟩ : BufTy).Contents (Elt Ideal)) :
    Cert.ReferenceIdeal.Layers.edgeCount e = Cert.KernelIdeal.Arrays.edgeCount (F := Ideal) e := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the two layers of the arguments: the kernel's run
    read through its two regions, the reference's run read one operation at a time, and the edge sums one function. -/
theorem algebraic : Cert.algebraic_KernelIdeal_ReferenceIdeal := by
  intro m ρ m' ρ' _ hagree
  refine ⟨fun c => Cert.KernelIdeal.Arrays.result m c, Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v58_eq, h0, h1, h2, h3, h4, h5, h6, h7, Cert.ReferenceIdeal.Layers.result_eq]
  unfold Cert.KernelIdeal.Arrays.result
  have hs : Cert.ReferenceIdeal.Layers.edgeSum (m ((c.tc : Thread Cert.KernelIdeal.nD Cert.KernelIdeal.τ).loc Cert.KernelIdeal.main_arg1))
      = Cert.KernelIdeal.Arrays.edgeSum (F := Ideal) (m ((c.tc : Thread Cert.KernelIdeal.nD Cert.KernelIdeal.τ).loc Cert.KernelIdeal.main_arg1)) :=
    funext fun X => edgeSum_same _ X
  rw [hs, edgeCount_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
